-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S8x512x512 : Shape := ⟨3, ![8, 512, 512]⟩
abbrev S8x512 : Shape := ⟨2, ![8, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x8192x512 .f32) (main_arg1 : FVec F S8x512x512 .f32) (main_arg2 : FVec F S8x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S8x8192x512 : Shape := ⟨3, ![8, 8192, 512]⟩
abbrev S8x512x512 : Shape := ⟨3, ![8, 512, 512]⟩
abbrev S8x512 : Shape := ⟨2, ![8, 512]⟩
abbrev S8x1x512 : Shape := ⟨3, ![8, 1, 512]⟩
abbrev S1x1024x512 : Shape := ⟨3, ![1, 1024, 512]⟩
abbrev S1x512x512 : Shape := ⟨3, ![1, 512, 512]⟩
abbrev S1x1x512 : Shape := ⟨3, ![1, 1, 512]⟩
abbrev S1024x512 : Shape := ⟨2, ![1024, 512]⟩
abbrev S512x512 : Shape := ⟨2, ![512, 512]⟩
abbrev S512 : Shape := ⟨1, ![512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x8192x512, .f32⟩
  | .hbm, ⟨1, _⟩ => ⟨S8x512x512, .f32⟩
  | .hbm, ⟨2, _⟩ => ⟨S8x512, .f32⟩
  | .hbm, ⟨3, _⟩ => ⟨S8x1x512, .f32⟩
  | .hbm, ⟨4, _⟩ => ⟨S8x8192x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x1024x512, .f32⟩
  | .local _ .vmem, ⟨7, _⟩ => ⟨S1x1024x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512_S8x1x512 : S8x512.ShapeCasts S8x1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S1024x512 : S1x512.Broadcasts S1024x512
  shapeCasts_S1024x512_S1x1024x512 : S1024x512.ShapeCasts S1x1024x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x8192x512.size a
  hwx0_0 : ∀ i : grid0.Coords, EltTy.bits .f32 = 32 ∨ (Rect.block (s := S8x8192x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x8192x512.size a
  hwx0_3 : ∀ i : grid0.Coords, EltTy.bits .f32 = 32 ∨ (Rect.block (s := S8x8192x512) S1x1024x512.size (cc0_transform_3 i) (hinb0_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S8x512x512 : Shape := ⟨3, ![8, 512, 512]⟩
abbrev S8x512 : Shape := ⟨2, ![8, 512]⟩
abbrev S8x1x512 : Shape := ⟨3, ![8, 1, 512]⟩

abbrev nBuf : Space → Nat
  | .hbm => 7
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x512x512, .f32⟩
  | .hbm, ⟨2, _⟩ => ⟨S8x512, .f32⟩
  | .hbm, ⟨3, _⟩ => ⟨S8x8192x512, .f32⟩
  | .hbm, ⟨4, _⟩ => ⟨S8x1x512, .f32⟩
  | .hbm, ⟨5, _⟩ => ⟨S8x8192x512, .f32⟩
  | .hbm, ⟨6, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x512_S8x1x512_0_2 : S8x512.BroadcastsInDim S8x1x512 (![0, 2] : Fin 2 → Fin S8x1x512.rank)
  bcast_S8x1x512_S8x8192x512_0_1_2 : S8x1x512.BroadcastsInDim S8x8192x512 (![0, 1, 2] : Fin 3 → Fin S8x8192x512.rank)
  dot_S8x8192x512_S8x512x512_S8x8192x512_2_2_1_1_0_0_wf : DotDims.WF S8x8192x512 S8x512x512 S8x8192x512 [2] [2] [1] [1] [0] [0]

variable [Facts₀]

def dot_S8x8192x512_S8x512x512_S8x8192x512_2_2_1_1_0_0 : DotDims S8x8192x512 S8x512x512 S8x8192x512 where
  lhsContracting := [2]
  rhsContracting := [2]
  lhsNonContracting := [1]
  rhsNonContracting := [1]
  lhsBatch := [0]
  rhsBatch := [0]
  wf := dot_S8x8192x512_S8x512x512_S8x8192x512_2_2_1_1_0_0_wf

class Facts : Prop extends Facts₀ where

variable [Facts]
-- ==== Proof.Payload.lean ====
/-
  What one grid step stores, read at one entry.

  A step loads a 1024-row block of one batch of `x`, the whole 512 × 512 weight matrix of that
  batch, and that batch's 512 bias entries; each arrives with a leading axis of extent one. It
  drops the unit axes, multiplies the block by the transposed weights into a zero accumulator
  (both factors contract their LAST axis, so entry (r, o) pairs row r of the block with row o of
  the weights), adds the bias row to every row of the product, and restores the leading unit axis.
  Changing the float format of the two factors is the identity on the extended reals, and the
  zero accumulator contributes nothing, so entry (0, r, o) of the stored block is

      (Σ_{k < 512} xblock[0, r, k] · wblock[0, o, k]) + biasblock[0, 0, o].
-/
import proofs.«405109_j2516850835703_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The block product's two operand indices, axis by axis -/

/-- The left operand's row is the output's row. -/
theorem lhs_row (j : S1024x512.Idx) (q : dot_S1024x512_S512x512_S1024x512_1_1_0_0_n_n.contr.Idx) :
    (dot_S1024x512_S512x512_S1024x512_1_1_0_0_n_n.lhsIdx j q 0).val = (j 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl

/-- The left operand's column is the contraction coordinate. -/
theorem lhs_col (j : S1024x512.Idx) (q : dot_S1024x512_S512x512_S1024x512_1_1_0_0_n_n.contr.Idx) :
    (dot_S1024x512_S512x512_S1024x512_1_1_0_0_n_n.lhsIdx j q 1).val = (q ⟨0, by decide⟩).val :=
  dot_S1024x512_S512x512_S1024x512_1_1_0_0_n_n.lhsIdx_val_of_single rfl j q

/-- The right operand's ROW is the output's COLUMN: the weights enter transposed. -/
theorem rhs_row (j : S1024x512.Idx) (q : dot_S1024x512_S512x512_S1024x512_1_1_0_0_n_n.contr.Idx) :
    (dot_S1024x512_S512x512_S1024x512_1_1_0_0_n_n.rhsIdx j q 0).val = (j 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl

/-- The right operand's column is the contraction coordinate. -/
theorem rhs_col (j : S1024x512.Idx) (q : dot_S1024x512_S512x512_S1024x512_1_1_0_0_n_n.contr.Idx) :
    (dot_S1024x512_S512x512_S1024x512_1_1_0_0_n_n.rhsIdx j q 1).val = (q ⟨0, by decide⟩).val :=
  dot_S1024x512_S512x512_S1024x512_1_1_0_0_n_n.rhsIdx_val_of_single rfl j q

/-- The block product into the zero accumulator, at entry (r, o): Σ_k a[r, k] · b[o, k]. -/
theorem product_apply (a : FVec Ideal S1024x512 .bf16) (b : FVec Ideal S512x512 .bf16) (r : Fin 1024) (o : Fin 512) :
    matmul dot_S1024x512_S512x512_S1024x512_1_1_0_0_n_n none a b (constant (F := Ideal) S1024x512 .f32 0x00000000#32) (ix2 r o)
      = ∑ k : Fin 512, a (ix2 r k) * b (ix2 o k) := by
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 r o) ((contrEquiv1 dot_S1024x512_S512x512_S1024x512_1_1_0_0_n_n 512 rfl rfl).symm k) = ix2 r k := funext fun a => Fin.ext (by
    match a with
    | ⟨0, _⟩ => exact lhs_row _ _
    | ⟨1, _⟩ => exact (lhs_col _ _).trans hk)
  have er : dot_S1024x512_S512x512_S1024x512_1_1_0_0_n_n.rhsIdx (ix2 r o) ((contrEquiv1 dot_S1024x512_S512x512_S1024x512_1_1_0_0_n_n 512 rfl rfl).symm k) = ix2 o k := funext fun a => Fin.ext (by
    match a with
    | ⟨0, _⟩ => exact rhs_row _ _
    | ⟨1, _⟩ => exact (rhs_col _ _).trans hk)
  rw [el, er]

/-! ## The stored block at one entry -/

/-- Entry (z, r, o) of what a step stores, from the three loaded blocks: the 512-term sum of
    products of row r of the activation block with row o of the weight block, plus bias entry o.
    (z ranges over the one value 0.) -/
theorem stored_apply (x0 : Vec Ideal S1x1024x512 .f32) (x1 : Vec Ideal S1x512x512 .f32) (x2 : Vec Ideal S1x1x512 .f32)
    (z : Fin 1) (r : Fin 1024) (o : Fin 512) :
    k0_pay1 (F := Ideal) x0 x1 x2 (ix3 z r o)
      = (∑ k : Fin 512, x0 (ix3 (0 : Fin 1) r k) * x1 (ix3 (0 : Fin 1) o k)) + x2 (ix3 (0 : Fin 1) (0 : Fin 1) o) := by
  unfold k0_pay1
  -- the restored leading unit axis: entry (z, r, o) of the stored block is entry (r, o) of the sum
  refine (shapeCast_apply _ shapeCasts_S1024x512_S1x1024x512 (ix3 z r o) (ix2 r o) ?_).trans ?_
  · rw [Shape.rowMajor_val_two, Shape.rowMajor_val_three]
    show r.val * 512 + o.val = (z.val * 1024 + r.val) * 512 + o.val
    have := z.isLt; omega
  -- the sum of the product and the broadcast bias row, entry by entry
  refine congrArg₂ (fun u v : EReal => u + v) ((product_apply _ _ r o).trans ?_) ?_
  · -- each factor is its loaded block with the unit axis put back
    refine Finset.sum_congr rfl fun k _ => ?_
    refine congrArg₂ (fun u v : EReal => u * v) ?_ ?_
    · refine shapeCast_apply x0 shapeCasts_S1x1024x512_S1024x512 (ix2 r k) (ix3 (0 : Fin 1) r k) ?_
      rw [Shape.rowMajor_val_two, Shape.rowMajor_val_three]
      show ((0 : Fin 1).val * 1024 + r.val) * 512 + k.val = r.val * 512 + k.val
      simp
    · refine shapeCast_apply x1 shapeCasts_S1x512x512_S512x512 (ix2 o k) (ix3 (0 : Fin 1) o k) ?_
      rw [Shape.rowMajor_val_two, Shape.rowMajor_val_three]
      show ((0 : Fin 1).val * 512 + o.val) * 512 + k.val = o.val * 512 + k.val
      simp
  · -- the bias row is the same for every row r
    refine (broadcastTo_apply _ broadcasts_S1x512_S1024x512 (ix2 r o) (ix2 (0 : Fin 1) o) ?_).trans ?_
    · intro a
      match a with
      | ⟨0, _⟩ => exact (if_pos rfl).symm
      | ⟨1, _⟩ => exact (if_neg (show ¬((512 : Nat) = 1) by decide)).symm
    refine (shapeCast_apply _ shapeCasts_S512_S1x512 (ix2 (0 : Fin 1) o) (ix1 o) ?_).trans ?_
    · rw [Shape.rowMajor_val_one, Shape.rowMajor_val_two]
      show o.val = (0 : Fin 1).val * 512 + o.val
      simp
    refine shapeCast_apply x2 shapeCasts_S1x1x512_S512 (ix1 o) (ix3 (0 : Fin 1) (0 : Fin 1) o) ?_
    rw [Shape.rowMajor_val_one, Shape.rowMajor_val_three]
    show ((0 : Fin 1).val * 1 + (0 : Fin 1).val) * 512 + o.val = o.val
    simp

end Cert.KernelIdeal.Body

end
-- ==== Proof.Spec.lean ====
/-
  The function both programs compute, stated once over the whole arrays.

  Eight independent affine maps, one per leading index `b`: row `n` of `x[b]` (512 entries) is
  paired with row `o` of `W[b]` (512 entries), the products are summed over the shared last axis,
  and `bias[b, o]` is added:

      out[b, n, o] = (Σ_{k < 512} x[b, n, k] · W[b, o, k]) + bias[b, o].

  On the extended reals this needs no side condition: both programs form exactly this sum of
  products over the same index set and add the same bias entry, so neither distributivity nor
  cancellation is ever used.
-/
import Idealize.ShloMosaic.PureOps.Ideal
import Idealize.ShloMosaic.Lib.ValueIdx

noncomputable section

open scoped BigOperators

namespace Cert.BatchedAffine

open Idealize.ShloMosaic Idealize.ShloMosaic.ValueIdx

/-- The activations `x` and the result: 8 batches of 8192 rows of 512 entries. -/
abbrev Sx : Shape := ⟨3, ![8, 8192, 512]⟩
/-- The weights `W`: 8 batches of 512 output rows of 512 entries. -/
abbrev Sw : Shape := ⟨3, ![8, 512, 512]⟩
/-- The bias: 8 batches of 512 entries. -/
abbrev Sb : Shape := ⟨2, ![8, 512]⟩

/-- `out[b, n, o] = (Σ_k x[b, n, k] · W[b, o, k]) + bias[b, o]`, index by index. -/
def affine (x : FVec Ideal Sx .f32) (W : FVec Ideal Sw .f32) (bias : FVec Ideal Sb .f32) : FVec Ideal Sx .f32 :=
  fun i => (∑ k : Fin 512, x (ix3 (i 0) (i 1) k) * W (ix3 (i 0) (i 2) k)) + bias (ix2 (i 0) (i 2))

/-- The same entry with its three coordinates named. -/
theorem affine_apply (x : FVec Ideal Sx .f32) (W : FVec Ideal Sw .f32) (bias : FVec Ideal Sb .f32)
    (b : Fin 8) (n : Fin 8192) (o : Fin 512) :
    affine x W bias (ix3 b n o) = (∑ k : Fin 512, x (ix3 b n k) * W (ix3 b o k)) + bias (ix2 b o) := rfl

end Cert.BatchedAffine

end
-- ==== Proof.KernelSide.lean ====
/-
  The kernel's result array is the batched affine map.

  The grid has 8 × 8 points (b, s): batch b, and the s-th slab of 1024 rows. At point (b, s) the
  step reads rows 1024·s … 1024·s + 1023 of batch b of `x`, all of batch b of `W`, and batch b of the
  bias (which a host reshape has laid out with a unit middle axis before the call), and writes back
  rows 1024·s … 1024·s + 1023 of batch b of the result. Entry (b, 1024·s + r, o) written there is
  Σ_k x[b, 1024·s + r, k] · W[b, o, k] + bias[b, o], which is the specification at that index; and
  every index (b, n, o) of the result lies in the block of the point (b, n / 1024). So the result
  array is the specification everywhere.
-/
import proofs.«405109_j2516850835703_3_alg».proof.Proof.Gen.KernelIdeal.Value
import proofs.«405109_j2516850835703_3_alg».proof.Proof.Payload
import proofs.«405109_j2516850835703_3_alg».proof.Proof.Spec
import Idealize.ShloMosaic.Lib.StableHlo.Run

noncomputable section

open scoped BigOperators

namespace Cert.KernelIdeal.KerValue

open Cert.KernelIdeal Cert.KernelIdeal.Gen Cert.KernelIdeal.Value Cert.KernelIdeal.Body
open Idealize.ShloMosaic Idealize.ShloMosaic.TcCoe Idealize.SL.Sem Idealize.ShloMosaic.StableHlo Idealize.ShloMosaic.ValueIdx
open Idealize.ShloMosaic.Pipeline (Dat)
open Cert.BatchedAffine

variable (m : (ℓ : Loc nD τ sig) → Buf (Elt Ideal) ℓ) (ρ : Dev nD → PrngReg)

/-- The zero offsets of a whole-block access, however spelt. -/
theorem zero_offsets : (![0, 0, 0] : Fin 3 → Nat) = fun _ => 0 := funext fun a => by fin_cases a <;> rfl

/-! ## The bias as the call finds it -/

/-- Before the call the host reshapes the [8, 512] bias to [8, 1, 512]. -/
theorem bias_window_array (c : Dev nD) :
    (V m c main_v0 : S8x1x512.Idx → EReal) = shapeCast S8x1x512 (m ((c : Thread nD τ).loc main_arg2)) shapeCasts_S8x512_S8x1x512 := by
  dsimp only [Gen.V, Gen.hostOps0]
  after_results
  rfl

/-- So its entry (b, 0, o) is `bias[b, o]`. -/
theorem bias_window_apply (c : Dev nD) (i : S8x1x512.Idx) :
    V m c main_v0 i = m ((c : Thread nD τ).loc main_arg2) (ix2 (i 0) (i 2)) := by
  refine (congrFun (bias_window_array m c) i).trans ?_
  refine shapeCast_apply _ shapeCasts_S8x512_S8x1x512 i (ix2 (i 0) (i 2)) ?_
  rw [Shape.rowMajor_val_two, Shape.rowMajor_val_three]
  show (i 0).val * 512 + (i 2).val = ((i 0).val * 1 + (i 1).val) * 512 + (i 2).val
  have h1 : (i 1).val < 1 := (i 1).isLt
  omega

/-! ## Where each window's block sits at a grid point -/

/-- Over the 64 points: the activation block moves with the result block on the batch and slab
    axes; the weight and bias blocks move with it on the batch axis only; every other block index
    is zero; and the result's batch and slab block indices stay below 8. -/
theorem index_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 7 ∧ win0_3.index t (2 : Fin 3) = 0 :=
  (by decide +kernel : ∀ t : Fin grid0.N, _)

/-- Every (batch, slab) pair is some point's result block. -/
theorem index_onto : ∀ (b : Fin 8) (s : Fin 8), ∃ t : Fin cfg0.N, win0_3.index t = ![b.val, s.val, 0] :=
  (by decide +kernel : ∀ (b : Fin 8) (s : Fin 8), ∃ t : Fin grid0.N, win0_3.index t = ![b.val, s.val, 0])

/-! ## What a point writes back -/

/-- Point `t` writes back block `t` of the specification of the three argument arrays. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S1x1024x512) zero_offsets, View.ld_unit_zero (S := S1x512x512) zero_offsets, View.ld_unit_zero (S := S1x1x512) zero_offsets]
  obtain ⟨x0, x1, x2, w0, w1, w2, b0, b1, b2, o0, o1, o2⟩ := index_facts t
  funext j
  obtain ⟨z, r, o, rfl⟩ : ∃ (z : Fin 1) (r : Fin 1024) (o : Fin 512), j = ix3 z r o := ⟨j 0, j 1, j 2, eq_ix3 j⟩
  have hz : z.val < 1 := z.isLt
  show k0_pay1 (F := Ideal) (iblk m c 0 t) (iblk m c 1 t) (iblk m c 2 t) (ix3 z r o)
    = affine (m ((c : Thread nD τ).loc main_arg0)) (m ((c : Thread nD τ).loc main_arg1)) (m ((c : Thread nD τ).loc main_arg2)) (((cfg0.win 3).blk t).view.emb (ix3 z r o))
  refine (stored_apply (iblk m c 0 t) (iblk m c 1 t) (iblk m c 2 t) z r o).trans ?_
  unfold affine
  refine congrArg₂ (fun u v : EReal => u + v) (Finset.sum_congr rfl fun k _ => congrArg₂ (fun u v : EReal => u * v) ?_ ?_) ?_
  · -- the activation block's entry (0, r, k) is x at (batch, slab row, k)
    show V m c main_arg0 (((cfg0.win 0).blk t).view.emb (ix3 (0 : Fin 1) r k)) = _
    refine (congrFun (V_main_arg0 m c) _).trans (congrArg _ ?_)
    funext a; apply Fin.ext
    match a with
    | ⟨0, _⟩ => show win0_0.index t (0 : Fin 3) * 1 + 1 * 0 = win0_3.index t (0 : Fin 3) * 1 + 1 * z.val; omega
    | ⟨1, _⟩ => show win0_0.index t (1 : Fin 3) * 1024 + 1 * r.val = win0_3.index t (1 : Fin 3) * 1024 + 1 * r.val; omega
    | ⟨2, _⟩ => show win0_0.index t (2 : Fin 3) * 512 + 1 * k.val = k.val; omega
  · -- the weight block's entry (0, o, k) is W at (batch, o, k)
    show V m c main_arg1 (((cfg0.win 1).blk t).view.emb (ix3 (0 : Fin 1) o k)) = _
    refine (congrFun (V_main_arg1 m c) _).trans (congrArg _ ?_)
    funext a; apply Fin.ext
    match a with
    | ⟨0, _⟩ => show win0_1.index t (0 : Fin 3) * 1 + 1 * 0 = win0_3.index t (0 : Fin 3) * 1 + 1 * z.val; omega
    | ⟨1, _⟩ => show win0_1.index t (1 : Fin 3) * 512 + 1 * o.val = win0_3.index t (2 : Fin 3) * 512 + 1 * o.val; omega
    | ⟨2, _⟩ => show win0_1.index t (2 : Fin 3) * 512 + 1 * k.val = k.val; omega
  · -- the bias block's entry (0, 0, o) is bias at (batch, o)
    show V m c main_v0 (((cfg0.win 2).blk t).view.emb (ix3 (0 : Fin 1) (0 : Fin 1) o)) = _
    refine (bias_window_apply m c _).trans (congrArg _ ?_)
    funext a; apply Fin.ext
    match a with
    | ⟨0, _⟩ => show win0_2.index t (0 : Fin 3) * 1 + 1 * 0 = win0_3.index t (0 : Fin 3) * 1 + 1 * z.val; omega
    | ⟨1, _⟩ => show win0_2.index t (2 : Fin 3) * 512 + 1 * o.val = win0_3.index t (2 : Fin 3) * 512 + 1 * o.val; omega

/-! ## The blocks fill the array -/

/-- An index is in point `t`'s result block iff each coordinate is in the block's range on its axis. -/
theorem mem_block (t : Fin cfg0.N) (i : S8x8192x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v1).slice (win0_3.rect t)).set ↔ _
  rw [View.set_slice_whole, Rect.mem_set_unit]
  exact Iff.rfl

/-- Index (b, n, o) lies in the block of the point with batch b and slab n / 1024. -/
theorem covered (i : S8x8192x512.Idx) :
    ∃ t : Fin cfg0.N, (cfg0.win 3).flush t = true ∧ i ∈ ((cfg0.win 3).blk t).view.set := by
  have hi0 : (i 0).val < 8 := (i 0).isLt
  have hi1 : (i 1).val < 8192 := (i 1).isLt
  have hi2 : (i 2).val < 512 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-! ## The array after the run, and the run -/

/-- After the last point the result array is the specification of the argument arrays. -/
theorem final (c : Dev nD) :
    (dats m 0 c).arrAt 3 cfg0.N
      = affine (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution ends with the result array at the specification and the arguments unchanged. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KerValue

end
-- ==== Proof.RefSide.lean ====
/-
  The reference program computes the batched affine map.

  Its four host operations are a batched product that contracts the last axis of `x` with the
  last axis of `W` (so entry (b, n, o) is Σ_k x[b, n, k] · W[b, o, k]), two broadcasts that lay
  `bias[b, o]` out over a unit middle axis and then over all 8192 rows, and an elementwise sum.
  Read at an index (b, n, o) the composed term is therefore the sum of products plus `bias[b, o]`:
  the broadcasts forget `n`, and the two index functions of the product are (b, n, k) and (b, o, k).
-/
import proofs.«405109_j2516850835703_3_alg».proof.Proof.Gen.ReferenceIdeal.Read
import proofs.«405109_j2516850835703_3_alg».proof.Proof.Spec

noncomputable section

open scoped BigOperators

namespace Cert.ReferenceIdeal.RefValue

open Cert.ReferenceIdeal Cert.ReferenceIdeal.Read Idealize.ShloMosaic Idealize.ShloMosaic.ValueIdx Cert.BatchedAffine

/-- The left factor of the product at (b, n, o) and contraction index k sits at (b, n, k). -/
theorem left_index (i : S8x8192x512.Idx) (k : Fin 512) : lidx_main_v0 i k = ix3 (i 0) (i 1) k :=
  funext fun a => Fin.ext (by match a with | ⟨0, _⟩ => rfl | ⟨1, _⟩ => rfl | ⟨2, _⟩ => rfl)

/-- The right factor sits at (b, o, k): the weights are indexed by the OUTPUT column first. -/
theorem right_index (i : S8x8192x512.Idx) (k : Fin 512) : ridx_main_v0 i k = ix3 (i 0) (i 2) k :=
  funext fun a => Fin.ext (by match a with | ⟨0, _⟩ => rfl | ⟨1, _⟩ => rfl | ⟨2, _⟩ => rfl)

/-- Through both broadcasts the bias is read at (b, o): the row coordinate n is forgotten. -/
theorem bias_index (i : S8x8192x512.Idx) : idx_main_v1 (idx_main_v2 i) = ix2 (i 0) (i 2) :=
  funext fun a => Fin.ext (by match a with | ⟨0, _⟩ => rfl | ⟨1, _⟩ => rfl)

/-- The reference's result is `affine` of its three arguments, index by index. -/
theorem reference_eq_affine (x : FVec Ideal Sx .f32) (W : FVec Ideal Sw .f32) (bias : FVec Ideal Sb .f32) :
    val_main_v3 (F := Ideal) x W bias = affine x W bias := by
  funext i
  rw [val_main_v3_apply, val_main_v0_apply, val_main_v2_apply, val_main_v1_apply]
  simp only [left_index, right_index, bias_index]
  rfl

end Cert.ReferenceIdeal.RefValue

end
-- ==== Proof.lean ====
/-
  Eight affine maps, one per batch: out[b] = x[b] · W[b]ᵀ + bias[b], with x of shape
  [8, 8192, 512], W of shape [8, 512, 512] (output row first) and bias of shape [8, 512].

  Index by index, over the extended reals,

      out[b, n, o] = (Σ_{k < 512} x[b, n, k] · W[b, o, k]) + bias[b, o].

  The tiled program computes this slab by slab: for each batch and each run of 1024 consecutive
  rows it multiplies the slab by the transposed weights of the batch into a zero accumulator and
  adds the batch's bias row to every row; the narrowing of the two factors before the product is
  the identity on exact values, and the slabs partition the rows. The reference program forms the
  same 512-term sum of products in one batched contraction and adds the bias broadcast over the
  rows. Both sums range over the same index set in the same order and the same bias entry is
  added, so the two results agree at every index with no condition on the inputs: no
  distributive or cancellation law is used, only that adding zero changes nothing.

  The three termination-and-frame statements come from the programs' own runs; the tiled
  program read on exact values is the tiled program's own text (no rewrite was applied), so
  that conjunct is trivial; the last conjunct is the equality above.
-/
import proofs.«405109_j2516850835703_3_alg».proof.Defs
import proofs.«405109_j2516850835703_3_alg».proof.Proof.Gen.Kernel
import proofs.«405109_j2516850835703_3_alg».proof.Proof.Gen.Kernel.Skeleton
import proofs.«405109_j2516850835703_3_alg».proof.Proof.Gen.Kernel.Launch
import proofs.«405109_j2516850835703_3_alg».proof.Proof.Gen.Kernel.Points
import proofs.«405109_j2516850835703_3_alg».proof.Proof.Gen.Kernel.Frame
import proofs.«405109_j2516850835703_3_alg».proof.Proof.Gen.KernelIdeal
import proofs.«405109_j2516850835703_3_alg».proof.Proof.Gen.KernelIdeal.Skeleton
import proofs.«405109_j2516850835703_3_alg».proof.Proof.Gen.KernelIdeal.Launch
import proofs.«405109_j2516850835703_3_alg».proof.Proof.Gen.KernelIdeal.Points
import proofs.«405109_j2516850835703_3_alg».proof.Proof.Gen.KernelIdeal.Frame
import proofs.«405109_j2516850835703_3_alg».proof.Proof.Gen.ReferenceIdeal
import proofs.«405109_j2516850835703_3_alg».proof.Proof.Gen.Pre_finite_inputs
import proofs.«405109_j2516850835703_3_alg».proof.Proof.KernelSide
import proofs.«405109_j2516850835703_3_alg».proof.Proof.RefSide
import Idealize.ShloMosaic.Adequacy
import Idealize.ShloMosaic.Init

noncomputable section

namespace Cert.Proof

open Idealize.ShloMosaic Idealize.ShloMosaic.TcCoe Idealize.SL.Sem

/-- The tiled program at the word level terminates and leaves its arguments as they were. -/
theorem frame_tiled_words : Cert.frame_Kernel := fun m ρ _ => Cert.Kernel.Gen.frame m ρ

/-- The tiled program on exact values terminates and leaves its arguments as they were. -/
theorem frame_tiled_exact : Cert.frame_KernelIdeal := fun m ρ _ => Cert.KernelIdeal.Gen.frame m ρ

/-- The reference terminates and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the tiled program was read on exact values. -/
theorem exact_reading : Cert.preserves_Kernel_KernelIdeal := trivial

/-- From memories that agree on x, W and bias both programs end with the result array at
    Σ_k x[b, n, k] · W[b, o, k] + bias[b, o]. -/
theorem same_result : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq_affine,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_tiled_words, frame_tiled_exact, frame_reference, exact_reading, same_result⟩

end Cert.Proof

end
